-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x8192 : Shape := ⟨2, ![2048, 8192]⟩
abbrev S8192 : Shape := ⟨1, ![8192]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x8192 : S_.BroadcastsInDim S2048x8192 (![] : Fin 0 → Fin S2048x8192.rank)
  reducesTo_S2048x8192_S_d0_1 : S2048x8192.ReducesTo [0, 1] S_
  bcast_S_S8192 : S_.BroadcastsInDim S8192 (![] : Fin 0 → Fin S8192.rank)
  reducesTo_S8192_S_d0 : S8192.ReducesTo [0] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048 .f32) (main_v13 : IVec S_ 1) (main_v16 : IVec S8192x2048 1) : IVec S_ 1 :=
  let main_c_5 : IVec S_ 1 := constantI S_ 1 1#1
  let main_v17 : IVec S_ 1 := (fun x v => Host.reduce IntOp.andi x v reducesTo_S8192x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  main_v23

def fn {F : FTy → Type} [FloatOps F] (main_arg0 : FVec F S8192x2048 .f32) (main_arg1 : FVec F S2048x8192 .f32) (main_arg2 : FVec F S8192 .f32) (main_arg3 : FVec F S8192x2048 .f32) (main_arg4 : FVec F S2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048x8192 .f32 := Host.absf main_arg1
  let main_cst_0 : FVec F S_ .f32 := constant S_ .f32 0x7F800000#32
  let main_v5 : FVec F S2048x8192 .f32 := broadcastInDim S2048x8192 ![] bcast_S_S2048x8192 main_cst_0
  let main_v6 : IVec S2048x8192 1 := cmpf .olt main_v4 main_v5
  let main_c_1 : IVec S_ 1 := constantI S_ 1 1#1
  let main_v7 : IVec S_ 1 := (fun x v => Host.reduce IntOp.andi x v reducesTo_S2048x8192_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S8192x2048 .f32 := Host.absf main_arg3
  let main_cst_4 : FVec F S_ .f32 := constant S_ .f32 0x7F800000#32
  let main_v15 : FVec F S8192x2048 .f32 := broadcastInDim S8192x2048 ![] bcast_S_S8192x2048 main_cst_4
  let main_v16 : IVec S8192x2048 1 := cmpf .olt main_v14 main_v15
  fn_part1 (F := F) main_arg4 main_v13 main_v16
-- ==== Kernel.lean ====
abbrev S8192x2048 : Shape := ⟨2, ![8192, 2048]⟩
abbrev S2048x8192 : Shape := ⟨2, ![2048, 8192]⟩
abbrev S8192 : Shape := ⟨1, ![8192]⟩
abbrev S2048 : Shape := ⟨1, ![2048]⟩
abbrev S1x8192 : Shape := ⟨2, ![1, 8192]⟩
abbrev S1x2048 : Shape := ⟨2, ![1, 2048]⟩
abbrev S512x2048 : Shape := ⟨2, ![512, 2048]⟩
abbrev S2048x1024 : Shape := ⟨2, ![2048, 1024]⟩
abbrev S1x1024 : Shape := ⟨2, ![1, 1024]⟩
abbrev S1024x2048 : Shape := ⟨2, ![1024, 2048]⟩
abbrev S512x1024 : Shape := ⟨2, ![512, 1024]⟩

abbrev nBuf : Space → Nat
  | .hbm => 11
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192, .f32⟩
  | .hbm, ⟨3, _⟩ => ⟨S8192x2048, .f32⟩
  | .hbm, ⟨4, _⟩ => ⟨S2048, .f32⟩
  | .hbm, ⟨5, _⟩ => ⟨S8192x2048, .bf16⟩
  | .hbm, ⟨6, _⟩ => ⟨S2048x8192, .bf16⟩
  | .hbm, ⟨7, _⟩ => ⟨S8192x2048, .bf16⟩
  | .hbm, ⟨8, _⟩ => ⟨S1x8192, .f32⟩
  | .hbm, ⟨9, _⟩ => ⟨S1x2048, .f32⟩
  | .hbm, ⟨10, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024, .f32⟩
  | .local _ .vmem, ⟨5, _⟩ => ⟨S1x1024, .f32⟩
  | .local _ .vmem, ⟨6, _⟩ => ⟨S1024x2048, .bf16⟩
  | .local _ .vmem, ⟨7, _⟩ => ⟨S1024x2048, .bf16⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v23 : BitVec 1 := Scalar.cmpi .eq arg1 c7_i32
  let v24 : BitVec 32 := Scalar.extui v23
  let c0_i32_14 : BitVec 32 := 0#32
  let v25 : BitVec 1 := Scalar.cmpi .ne v24 c0_i32_14
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  bitsLt_bf16_f32 : FTy.bits .bf16 < FTy.bits .f32
  shapeCasts_S8192_S1x8192 : S8192.ShapeCasts S1x8192
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  dot_S512x2048_S2048x1024_S512x1024_1_0_0_1_n_n_wf : DotDims.WF S512x2048 S2048x1024 S512x1024 [1] [0] [0] [1] [] []
  dot_S512x1024_S1024x2048_S512x2048_1_0_0_1_n_n_wf : DotDims.WF S512x1024 S1024x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .bf16 = 32 ∨ (Rect.block (s := S8192x2048) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S2048x8192.size a
  hwx0_1 : ∀ i : grid0.Coords, EltTy.bits .bf16 = 32 ∨ (Rect.block (s := S2048x8192) S2048x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x8192.size a
  hwx0_2 : ∀ i : grid0.Coords, EltTy.bits .f32 = 32 ∨ (Rect.block (s := S1x8192) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S8192x2048.size a
  hwx0_3 : ∀ i : grid0.Coords, EltTy.bits .bf16 = 32 ∨ (Rect.block (s := S8192x2048) S1024x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x2048.size a ≤ S8192x2048.size a
  hwx0_5 : ∀ i : grid0.Coords, EltTy.bits .f32 = 32 ∨ (Rect.block (s := S8192x2048) S512x2048.size (cc0_transform_5 i) (hinb0_5 i)).WholeWords (EltTy.packing .f32)

variable [Facts₀]

def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf
def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8192x2048 : Shape := ⟨2, ![8192, 2048]⟩
abbrev S2048x8192 : Shape := ⟨2, ![2048, 8192]⟩
abbrev S8192 : Shape := ⟨1, ![8192]⟩
abbrev S2048 : Shape := ⟨1, ![2048]⟩
abbrev S8192x8192 : Shape := ⟨2, ![8192, 8192]⟩
abbrev S1x8192 : Shape := ⟨2, ![1, 8192]⟩
abbrev S_ : Shape := ⟨0, ![]⟩
abbrev S1x2048 : Shape := ⟨2, ![1, 2048]⟩

abbrev nBuf : Space → Nat
  | .hbm => 16
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192, .f32⟩
  | .hbm, ⟨3, _⟩ => ⟨S8192x2048, .f32⟩
  | .hbm, ⟨4, _⟩ => ⟨S2048, .f32⟩
  | .hbm, ⟨5, _⟩ => ⟨S8192x8192, .f32⟩
  | .hbm, ⟨6, _⟩ => ⟨S1x8192, .f32⟩
  | .hbm, ⟨7, _⟩ => ⟨S8192x8192, .f32⟩
  | .hbm, ⟨8, _⟩ => ⟨S8192x8192, .f32⟩
  | .hbm, ⟨9, _⟩ => ⟨S_, .f32⟩
  | .hbm, ⟨10, _⟩ => ⟨S8192x8192, .f32⟩
  | .hbm, ⟨11, _⟩ => ⟨S8192x8192, .f32⟩
  | .hbm, ⟨12, _⟩ => ⟨S8192x2048, .f32⟩
  | .hbm, ⟨13, _⟩ => ⟨S1x2048, .f32⟩
  | .hbm, ⟨14, _⟩ => ⟨S8192x2048, .f32⟩
  | .hbm, ⟨15, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]

class Facts₀ : Prop where
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  dot_S8192x2048_S2048x8192_S8192x8192_1_0_0_1_n_n_wf : DotDims.WF S8192x2048 S2048x8192 S8192x8192 [1] [0] [0] [1] [] []
  dot_S8192x8192_S8192x2048_S8192x2048_1_0_0_1_n_n_wf : DotDims.WF S8192x8192 S8192x2048 S8192x2048 [1] [0] [0] [1] [] []

variable [Facts₀]

def dot_S8192x2048_S2048x8192_S8192x8192_1_0_0_1_n_n : DotDims S8192x2048 S2048x8192 S8192x8192 where
  lhsContracting := [1]
  rhsContracting := [0]
  lhsNonContracting := [0]
  rhsNonContracting := [1]
  lhsBatch := []
  rhsBatch := []
  wf := dot_S8192x2048_S2048x8192_S8192x8192_1_0_0_1_n_n_wf
def dot_S8192x8192_S8192x2048_S8192x2048_1_0_0_1_n_n : DotDims S8192x8192 S8192x2048 S8192x2048 where
  lhsContracting := [1]
  rhsContracting := [0]
  lhsNonContracting := [0]
  rhsNonContracting := [1]
  lhsBatch := []
  rhsBatch := []
  wf := dot_S8192x8192_S8192x2048_S8192x2048_1_0_0_1_n_n_wf

class Facts : Prop extends Facts₀ where

variable [Facts]
-- ==== Proof.Pieces.lean ====
/-
  What one run of the kernel body leaves in the carried accumulator and in the output block, as plain terms of what it
  loaded. The body stores whole buffers only, so each buffer ends at the value of the last store into it:
  at the first hidden block of a row block the accumulator is reset to the zero block and then holds the accumulation
  step over that zero block; at every later hidden block it holds the step over what the point before left; and at the
  last hidden block the output block is that new accumulator with the bias row added.
-/
import proofs.«137520_j1331439862247_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem Idealize.ShloMosaic.Tactic

variable {F : FTy → Type} [FloatOps F]

theorem offsets_zero : (![0, 0] : Fin 2 → Nat) = fun _ => 0 := funext fun a => by fin_cases a <;> rfl

/-- A later hidden block that is not the last: the accumulator ends at the accumulation step over what the point
    before left in it. -/
theorem scratch_B (c : Dev nD) (i : grid0.Coords) (arg2 : Memref sig .tc .vmem S512x2048 .bf16) (harg2 : arg2.IsWhole) (arg3 : Memref sig .tc .vmem S2048x1024 .bf16) (harg3 : arg3.IsWhole) (arg4 : Memref sig .tc .vmem S1x1024 .f32) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .f32) (harg8 : arg8.IsWhole) (hc0 : ¬cond0_0 i) (hc1 : ¬cond0_1 i)
    (x0 : Vec F S512x2048 .bf16) (x1 : Vec F S2048x1024 .bf16) (x2 : Vec F S1x1024 .f32) (x3 : Vec F S1024x2048 .bf16) (x4 : Vec F S1x2048 .f32) (xs0 : Vec F S512x2048 .f32) :
    sout0_B_0 c i arg2 harg2 arg3 harg3 arg4 harg4 arg5 harg5 arg6 harg6 arg7 harg7 arg8 harg8 hc0 hc1 x0 x1 x2 x3 x4 xs0 = k0_pay2 x0 x1 x2 xs0 x3 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 x4 xs0)]
  unfold kernelRun0_B
  dsimp only
  sl_unfold_words
  rw [View.canon_unit_zero offsets_zero]
  simp only [View.readAt_eq_ld, harg2.read_unread, harg3.read_unread, harg4.read_unread, harg5.read_unread, harg6.read_unread, harg8.read_unread, View.ld_unit_zero (S := S512x2048) offsets_zero, View.ld_unit_zero (S := S2048x1024) offsets_zero, View.ld_unit_zero (S := S1x1024) offsets_zero, View.ld_unit_zero (S := S1024x2048) offsets_zero, View.ld_unit_zero (S := S1x2048) offsets_zero]

/-- The first hidden block of a row block: the accumulator is reset to the zero block, read back, and ends at the
    accumulation step over that zero block. -/
theorem scratch_A (c : Dev nD) (i : grid0.Coords) (arg2 : Memref sig .tc .vmem S512x2048 .bf16) (harg2 : arg2.IsWhole) (arg3 : Memref sig .tc .vmem S2048x1024 .bf16) (harg3 : arg3.IsWhole) (arg4 : Memref sig .tc .vmem S1x1024 .f32) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .f32) (harg8 : arg8.IsWhole) (hc0 : cond0_0 i) (hc1 : ¬cond0_1 i)
    (x0 : Vec F S512x2048 .bf16) (x1 : Vec F S2048x1024 .bf16) (x2 : Vec F S1x1024 .f32) (x3 : Vec F S1024x2048 .bf16) (x4 : Vec F S1x2048 .f32) :
    sout0_A_0 c i arg2 harg2 arg3 harg3 arg4 harg4 arg5 harg5 arg6 harg6 arg7 harg7 arg8 harg8 hc0 hc1 x0 x1 x2 x3 x4 = k0_pay2 x0 x1 x2 (k0_pay1 (F := F)) x3 := by
  unfold sout0_A_0
  rw [View.read_writes_eq_canon _ _ _ (scover0_A_0 c i arg2 harg2 arg3 harg3 arg4 harg4 arg5 harg5 arg6 harg6 arg7 harg7 arg8 harg8 hc0 hc1 x0 x1 x2 x3 x4)]
  unfold kernelRun0_A
  dsimp only
  sl_unfold_words
  rw [View.canon_cons_unit_zero (S := S512x2048) offsets_zero]
  simp only [View.readAt_eq_ld, harg2.read_unread, harg3.read_unread, harg4.read_unread, harg5.read_unread, harg6.read_unread, harg8.read_unread, View.readCov_unit_zero (S := S512x2048) _ offsets_zero, View.ld_unit_zero (S := S512x2048) offsets_zero, View.ld_unit_zero (S := S2048x1024) offsets_zero, View.ld_unit_zero (S := S1x1024) offsets_zero, View.ld_unit_zero (S := S1024x2048) offsets_zero, View.ld_unit_zero (S := S1x2048) offsets_zero]

/-- The last hidden block of a row block: the accumulator ends at the accumulation step over what the point before
    left … -/
theorem scratch_C (c : Dev nD) (i : grid0.Coords) (arg2 : Memref sig .tc .vmem S512x2048 .bf16) (harg2 : arg2.IsWhole) (arg3 : Memref sig .tc .vmem S2048x1024 .bf16) (harg3 : arg3.IsWhole) (arg4 : Memref sig .tc .vmem S1x1024 .f32) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .f32) (harg8 : arg8.IsWhole) (hc0 : ¬cond0_0 i) (hc1 : cond0_1 i)
    (x0 : Vec F S512x2048 .bf16) (x1 : Vec F S2048x1024 .bf16) (x2 : Vec F S1x1024 .f32) (x3 : Vec F S1024x2048 .bf16) (x4 : Vec F S1x2048 .f32) (xs0 : Vec F S512x2048 .f32) :
    sout0_C_0 c i arg2 harg2 arg3 harg3 arg4 harg4 arg5 harg5 arg6 harg6 arg7 harg7 arg8 harg8 hc0 hc1 x0 x1 x2 x3 x4 xs0 = k0_pay2 x0 x1 x2 xs0 x3 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero offsets_zero]
  simp only [View.readAt_eq_ld, harg2.read_unread, harg3.read_unread, harg4.read_unread, harg5.read_unread, harg6.read_unread, harg8.read_unread, View.ld_unit_zero (S := S512x2048) offsets_zero, View.ld_unit_zero (S := S2048x1024) offsets_zero, View.ld_unit_zero (S := S1x1024) offsets_zero, View.ld_unit_zero (S := S1024x2048) offsets_zero, View.ld_unit_zero (S := S1x2048) offsets_zero]

/-- … and the output block is that new accumulator, read back, with the bias row added. -/
theorem out_C (c : Dev nD) (i : grid0.Coords) (arg2 : Memref sig .tc .vmem S512x2048 .bf16) (harg2 : arg2.IsWhole) (arg3 : Memref sig .tc .vmem S2048x1024 .bf16) (harg3 : arg3.IsWhole) (arg4 : Memref sig .tc .vmem S1x1024 .f32) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .f32) (harg8 : arg8.IsWhole) (hc0 : ¬cond0_0 i) (hc1 : cond0_1 i)
    (x0 : Vec F S512x2048 .bf16) (x1 : Vec F S2048x1024 .bf16) (x2 : Vec F S1x1024 .f32) (x3 : Vec F S1024x2048 .bf16) (x4 : Vec F S1x2048 .f32) (xs0 : Vec F S512x2048 .f32) :
    out0_C_5 c i arg2 harg2 arg3 harg3 arg4 harg4 arg5 harg5 arg6 harg6 arg7 harg7 arg8 harg8 hc0 hc1 x0 x1 x2 x3 x4 xs0 = k0_pay3 (k0_pay2 x0 x1 x2 xs0 x3) x4 := by
  unfold out0_C_5
  rw [View.read_writes_eq_canon _ _ _ (cover0_C_5 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero offsets_zero]
  simp only [View.readAt_eq_ld, harg2.read_unread, harg3.read_unread, harg4.read_unread, harg5.read_unread, harg6.read_unread, harg8.read_unread, View.readCov_unit_zero (S := S512x2048) _ offsets_zero, View.ld_unit_zero (S := S512x2048) offsets_zero, View.ld_unit_zero (S := S2048x1024) offsets_zero, View.ld_unit_zero (S := S1x1024) offsets_zero, View.ld_unit_zero (S := S1024x2048) offsets_zero, View.ld_unit_zero (S := S1x2048) offsets_zero]

end Cert.KernelIdeal.Pieces

end
-- ==== Proof.LibContraction.lean ====
/-
  A contraction over ONE axis, with no batch axis and one free axis on each operand, read by coordinates.

  For dimension numbers `d` whose contracting lists are the singletons `[cl]` and `[cr]`, the contraction's index set
  is in bijection with `Fin n`, `n` the extent of the contracted axis (`contrFin`), so a sum over it is a sum over `Fin n`
  (`sum_contr`). At the contraction position that `i : Fin n` names, the left operand's index has `i` on its contracted
  axis and the result's first coordinate on its free axis; the right operand's has `i` on its contracted axis and the
  result's second coordinate on its free axis. Each of the four facts is stated of the coordinate's VALUE (a natural
  number), so that a proof at literal shapes finishes with `Fin.ext`.
-/
import Idealize.ShloMosaic.PureOps.Ideal.Laws
import Idealize.ShloMosaic.Lib.ValueIdx

noncomputable section

open scoped BigOperators

namespace Cert.Lib.Contraction

open Idealize.ShloMosaic Idealize.ShloMosaic.ValueIdx

variable {sl sr so : Shape} (d : DotDims sl sr so)

/-- One contracted axis: the contraction's shape has rank one. -/
theorem contr_rank {cl : Fin sl.rank} (hc : d.lhsContracting = [cl]) : d.contr.rank = 1 :=
  d.rank_contr.trans (by rw [hc]; rfl)

/-- Its one extent is the contracted axis's. -/
theorem contr_size {cl : Fin sl.rank} (hc : d.lhsContracting = [cl]) (n : Nat) (hn : sl.size cl = n) :
    d.contr.size ⟨0, by rw [contr_rank d hc]; exact Nat.one_pos⟩ = n := by
  have h := d.size_contr 0 (by rw [hc]; exact Nat.one_pos)
  rw [← hn]
  refine h.trans ?_
  simp [hc]

/-- The contraction's positions are the numbers below the contracted extent. -/
def contrFin {cl : Fin sl.rank} (hc : d.lhsContracting = [cl]) (n : Nat) (hn : sl.size cl = n) : d.contr.Idx ≃ Fin n :=
  contrEquiv1 d n (contr_rank d hc) (contr_size d hc n hn)

/-- A sum over the contraction's positions is the sum over those numbers. -/
theorem sum_contr {M : Type*} [AddCommMonoid M] {cl : Fin sl.rank} (hc : d.lhsContracting = [cl]) (n : Nat)
    (hn : sl.size cl = n) (f : d.contr.Idx → M) :
    ∑ k, f k = ∑ i : Fin n, f ((contrFin d hc n hn).symm i) :=
  (Equiv.sum_comp (contrFin d hc n hn).symm f).symm

/-- On its contracted axis the left operand's index is the position. -/
theorem lhs_contracted {cl : Fin sl.rank} (hc : d.lhsContracting = [cl]) (n : Nat) (hn : sl.size cl = n)
    (j : so.Idx) (i : Fin n) : (d.lhsIdx j ((contrFin d hc n hn).symm i) cl).val = i.val :=
  (d.lhsIdx_val_of_single hc j _).trans (contrEquiv1_symm_val d n (contr_rank d hc) (contr_size d hc n hn) i)

/-- On its contracted axis the right operand's index is the position. -/
theorem rhs_contracted {cl : Fin sl.rank} {cr : Fin sr.rank} (hc : d.lhsContracting = [cl]) (hc' : d.rhsContracting = [cr])
    (n : Nat) (hn : sl.size cl = n) (j : so.Idx) (i : Fin n) :
    (d.rhsIdx j ((contrFin d hc n hn).symm i) cr).val = i.val :=
  (d.rhsIdx_val_of_single hc' j _).trans (contrEquiv1_symm_val d n (contr_rank d hc) (contr_size d hc n hn) i)

/-- With no batch axis, the left operand's one free axis reads the result's first coordinate, at every position. -/
theorem lhs_free {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one free axis on the left, the right operand's one free axis reads the result's second
    coordinate, at every position. -/
theorem rhs_free {nl : Fin sl.rank} {nr : Fin sr.rank} (hb : d.lhsBatch = []) (hb' : d.rhsBatch = [])
    (hn : d.lhsNonContracting = [nl]) (hn' : d.rhsNonContracting = [nr]) (j : so.Idx) (k : d.contr.Idx)
    (h1 : 1 < so.rank) : (d.rhsIdx j k nr).val = (j ⟨1, h1⟩).val := by
  have hnb : nr ∉ d.rhsBatch := by rw [hb']; exact List.not_mem_nil
  have hmem : nr ∈ d.rhsNonContracting := by rw [hn']; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn, hn'])

end Cert.Lib.Contraction

end
-- ==== Proof.Payload.lean ====
/-
  The kernel body's arithmetic at an index, at the ideal instance.

  The body stores three values into its blocks. The first is a block of zeros (the accumulator's reset). The second is
  one accumulation step of a two-layer perceptron over a block of 1024 hidden units: with x the [512, 2048] block of
  inputs, w1 the [2048, 1024] block of first-layer weights, b1 the [1, 1024] block of first-layer biases and w2 the
  [1024, 2048] block of second-layer weights, entry (p, q) of the new accumulator is the old one plus
  ∑ k, max (∑ d, x(p, d) * w1(d, k) + b1(0, k)) 0 * w2(k, q). The third adds the [1, 2048] row of second-layer biases to
  every row of the accumulator.

  Each matrix product contracts the left operand's second axis with the right operand's first and has no batch axis, so
  read at (p, k) it is the sum over the shared axis of left(p, d) * right(d, k) (`matmul_plain_apply`, from the
  coordinate reading of a one-axis contraction). At the ideal values the elementwise operations act entrywise on
  extended reals, a format change is the identity, a same-shape cast is the identity, a [1, b] row broadcast to [a, b]
  reads its one row, and the word 0x00000000 is the number 0.
-/
import proofs.«137520_j1331439862247_1_alg».proof.Proof.Gen.KernelIdeal.Skeleton
import proofs.«137520_j1331439862247_1_alg».proof.Proof.LibContraction
import Idealize.ShloMosaic.Lib.ValueIdx
import Idealize.ShloMosaic.Lib.ValueLayout
import Idealize.ShloMosaic.Lib.Pipeline.Value
import Idealize.ShloMosaic.PureOps.Ideal.Laws
noncomputable section
open scoped BigOperators
namespace Cert.KernelIdeal.Payload
open Cert.KernelIdeal Cert.KernelIdeal.Gen Idealize.ShloMosaic Idealize.ShloMosaic.ValueIdx

/-- A plain matrix product with a zero accumulator, read at entry (p, k): for dimension numbers that contract the
    left operand's second axis against the right operand's first, with no batch axis, it is the sum over the shared
    axis of the products of row p of the left operand and column k of the right. -/
theorem matmul_plain_apply {m n r : ℕ} {φ₁ φ₂ : FTy}
    (D : DotDims (⟨2, ![m, n]⟩ : Shape) (⟨2, ![n, r]⟩ : Shape) (⟨2, ![m, r]⟩ : Shape))
    (hlc : D.lhsContracting = [1]) (hrc : D.rhsContracting = [0])
    (hln : D.lhsNonContracting = [0]) (hrn : D.rhsNonContracting = [1])
    (hlb : D.lhsBatch = []) (hrb : D.rhsBatch = [])
    (a : FVec Ideal (⟨2, ![m, n]⟩ : Shape) φ₁) (b : FVec Ideal (⟨2, ![n, r]⟩ : Shape) φ₂) (p : Fin m) (k : Fin r) :
    matmul (F := Ideal) D none a b (constant (⟨2, ![m, r]⟩ : Shape) .f32 0x00000000#32) (ix2 p k)
      = ∑ d : Fin n, a (ix2 p d) * b (ix2 d k) := by
  refine (Ideal.matmul_constant_zero_apply D none a b (ix2 p k)).trans ?_
  rw [Cert.Lib.Contraction.sum_contr D (cl := 1) hlc n rfl]
  refine Finset.sum_congr rfl fun d _ => ?_
  -- the left operand's index at position d is (p, d)
  have hl : D.lhsIdx (ix2 p k) ((Cert.Lib.Contraction.contrFin D (cl := 1) hlc n rfl).symm d) = ix2 p d := by
    have h0 := Cert.Lib.Contraction.lhs_free D (nl := 0) hlb hln (ix2 p k)
      ((Cert.Lib.Contraction.contrFin D (cl := 1) hlc n rfl).symm d) Nat.zero_lt_two
    have h1 := Cert.Lib.Contraction.lhs_contracted D (cl := 1) hlc n rfl (ix2 p k) d
    funext ax
    match ax with
    | ⟨0, _⟩ => exact Fin.ext h0
    | ⟨1, _⟩ => exact Fin.ext h1
  -- the right operand's index at position d is (d, k)
  have hr : D.rhsIdx (ix2 p k) ((Cert.Lib.Contraction.contrFin D (cl := 1) hlc n rfl).symm d) = ix2 d k := by
    have h0 := Cert.Lib.Contraction.rhs_contracted D (cl := 1) (cr := 0) hlc hrc n rfl (ix2 p k) d
    have h1 := Cert.Lib.Contraction.rhs_free D (nl := 0) (nr := 1) hlb hrb hln hrn (ix2 p k)
      ((Cert.Lib.Contraction.contrFin D (cl := 1) hlc n rfl).symm d) Nat.one_lt_two
    funext ax
    match ax with
    | ⟨0, _⟩ => exact Fin.ext h0
    | ⟨1, _⟩ => exact Fin.ext h1
  rw [hl, hr]

/-- The first product of the step, x block times w1 block, at entry (p, k). -/
theorem mm1_apply (a : FVec Ideal S512x2048 .bf16) (b : FVec Ideal S2048x1024 .bf16) (p : Fin 512) (k : Fin 1024) :
    matmul (F := Ideal) dot_S512x2048_S2048x1024_S512x1024_1_0_0_1_n_n none a b (constant S512x1024 .f32 0x00000000#32) (ix2 p k)
      = ∑ d : Fin 2048, a (ix2 p d) * b (ix2 d k) :=
  matmul_plain_apply dot_S512x2048_S2048x1024_S512x1024_1_0_0_1_n_n rfl rfl rfl rfl rfl rfl a b p k

/-- The second product of the step, hidden block times w2 block, at entry (p, q). -/
theorem mm2_apply (a : FVec Ideal S512x1024 .bf16) (b : FVec Ideal S1024x2048 .bf16) (p : Fin 512) (q : Fin 2048) :
    matmul (F := Ideal) dot_S512x1024_S1024x2048_S512x2048_1_0_0_1_n_n none a b (constant S512x2048 .f32 0x00000000#32) (ix2 p q)
      = ∑ k : Fin 1024, a (ix2 p k) * b (ix2 k q) :=
  matmul_plain_apply dot_S512x1024_S1024x2048_S512x2048_1_0_0_1_n_n rfl rfl rfl rfl rfl rfl a b p q

/-- The reset stores zero everywhere. -/
theorem reset_apply (j : S512x2048.Idx) : k0_pay1 (F := Ideal) j = 0 := by
  unfold k0_pay1
  simp only [shapeCast_self]
  exact Ideal.ofBits_zero_f32

/-- The accumulation step at entry (p, q): the old accumulator plus, over the 1024 hidden units of the block, the positive part of (row p of the x block · column k of the w1 block + b1 block at k) times the w2 block at (k, q). -/
theorem accumulate_apply (v3 : Vec Ideal S512x2048 .bf16) (v5 : Vec Ideal S2048x1024 .bf16) (v8 : Vec Ideal S1x1024 .f32) (v15 : Vec Ideal S512x2048 .f32) (v16 : Vec Ideal S1024x2048 .bf16) (p : Fin 512) (q : Fin 2048) :
    k0_pay2 (F := Ideal) v3 v5 v8 v15 v16 (ix2 p q)
      = v15 (ix2 p q) + ∑ k : Fin 1024, max ((∑ d : Fin 2048, v3 (ix2 p d) * v5 (ix2 d k)) + v8 (ix2 (0 : Fin 1) k)) 0 * v16 (ix2 k q) := by
  unfold k0_pay2
  simp only [shapeCast_self]
  -- the outer sum: old accumulator plus the second product
  show v15 (ix2 p q) + _ = v15 (ix2 p q) + _
  congr 1
  refine (mm2_apply _ v16 p q).trans ?_
  refine Finset.sum_congr rfl fun k _ => ?_
  -- the hidden unit k of row p: positive part of the first product plus the bias row
  congr 1
  show max (_ + _) (Ideal.ofBits .f32 0x00000000#32) = max (_ + _) 0
  rw [mm1_apply v3 v5 p k, broadcastTo_1b_ab_apply, Ideal.ofBits_zero_f32]

/-- The final step at entry (p, q): the accumulator plus the b2 row at q. -/
theorem bias_apply (v26 : Vec Ideal S512x2048 .f32) (v27 : Vec Ideal S1x2048 .f32) (p : Fin 512) (q : Fin 2048) :
    k0_pay3 (F := Ideal) v26 v27 (ix2 p q) = v26 (ix2 p q) + v27 (ix2 (0 : Fin 1) q) := by
  unfold k0_pay3
  simp only [shapeCast_self]
  show v26 (ix2 p q) + _ = v26 (ix2 p q) + _
  rw [broadcastTo_1b_ab_apply]

end Cert.KernelIdeal.Payload
end
-- ==== Proof.Spec.lean ====
/-
  The two-layer perceptron `relu (x · w1 + b1) · w2 + b2` as ONE function of its five argument arrays, entry by entry,
  on the extended reals; the same sum taken hidden block by hidden block (the 8192 hidden units are 8 consecutive blocks
  of 1024); and the one law that joins the two: a sum over the hidden units is the sum over the blocks of each block's
  sum. Only commutativity and associativity of the extended reals' addition are used, so no entry needs to be finite.
-/
import Idealize.ShloMosaic.PureOps.Ideal
import Idealize.ShloMosaic.Lib.ValueIdx

noncomputable section

open scoped BigOperators

namespace Cert.Mlp

open Idealize.ShloMosaic Idealize.ShloMosaic.ValueIdx

/-- The shape of `x`, of `w2` and of the result: 8192 × 2048. -/
abbrev Sx : Shape := ⟨2, ![8192, 2048]⟩
/-- The shape of `w1`: 2048 × 8192. -/
abbrev Sw1 : Shape := ⟨2, ![2048, 8192]⟩
/-- The shape of `b1`: 8192. -/
abbrev Sb1 : Shape := ⟨1, ![8192]⟩
/-- The shape of `b2`: 2048. -/
abbrev Sb2 : Shape := ⟨1, ![2048]⟩

variable (x : Sx.Idx → EReal) (w1 : Sw1.Idx → EReal) (b1 : Sb1.Idx → EReal) (w2 : Sx.Idx → EReal) (b2 : Sb2.Idx → EReal)

/-- Hidden unit `K` of row `r`: the positive part of `Σ_d x[r, d] · w1[d, K] + b1[K]`. -/
def hidden (r : Fin 8192) (K : Fin 8192) : EReal :=
  max ((∑ d : Fin 2048, x (ix2 r d) * w1 (ix2 d K)) + b1 (ix1 K)) 0

/-- What hidden unit `K` adds to the result's entry `(r, c)`. -/
def term (r : Fin 8192) (c : Fin 2048) (K : Fin 8192) : EReal :=
  hidden x w1 b1 r K * w2 (ix2 K c)

/-- The perceptron: entry `(r, c)` is `Σ_K hidden[r, K] · w2[K, c] + b2[c]`. -/
def mlp : Sx.Idx → EReal := fun j =>
  (∑ K : Fin 8192, term x w1 b1 w2 (j 0) (j 1) K) + b2 (ix1 (j 1))

/-- Hidden unit number `1024 · h + k`, the `k`-th of block `h` (read modulo 8192, so that every `h` names a unit). -/
def unit (h : ℕ) (k : Fin 1024) : Fin 8192 := ⟨(1024 * h + k.val) % 8192, Nat.mod_lt _ (by norm_num)⟩

/-- Row number `512 · i + p`, the `p`-th of row block `i` (read modulo 8192). -/
def row (i : ℕ) (p : Fin 512) : Fin 8192 := ⟨(512 * i + p.val) % 8192, Nat.mod_lt _ (by norm_num)⟩

/-- What hidden block `h` adds to the result's entry `(r, c)`. -/
def blockTerm (r : Fin 8192) (c : Fin 2048) (h : ℕ) : EReal :=
  ∑ k : Fin 1024, term x w1 b1 w2 r c (unit h k)

/-- The first `n` hidden blocks' contribution to entry `(r, c)`. -/
def partialSum (r : Fin 8192) (c : Fin 2048) (n : ℕ) : EReal :=
  ∑ h ∈ Finset.range n, blockTerm x w1 b1 w2 r c h

theorem partialSum_zero (r : Fin 8192) (c : Fin 2048) : partialSum x w1 b1 w2 r c 0 = 0 :=
  Finset.sum_range_zero _

theorem partialSum_succ (r : Fin 8192) (c : Fin 2048) (n : ℕ) :
    partialSum x w1 b1 w2 r c (n + 1) = partialSum x w1 b1 w2 r c n + blockTerm x w1 b1 w2 r c n :=
  Finset.sum_range_succ _ _

/-- A sum over the 8192 hidden units is the sum over the 8 blocks of the sum over each block's 1024 units. -/
theorem sum_units {M : Type*} [AddCommMonoid M] (f : Fin 8192 → M) :
    ∑ K, f K = ∑ h ∈ Finset.range 8, ∑ k : Fin 1024, f (unit h k) := by
  rw [Finset.sum_range]
  have e : ∑ K : Fin 8192, f K = ∑ p : Fin 8 × Fin 1024, f (unit p.1.val p.2) := by
    refine (Fintype.sum_equiv (finProdFinEquiv (m := 8) (n := 1024)) (fun p => f (unit p.1.val p.2)) f ?_).symm
    intro p
    refine congrArg f (Fin.ext ?_)
    show (1024 * p.1.val + p.2.val) % 8192 = p.2.val + 1024 * p.1.val
    have := p.1.isLt; have := p.2.isLt; omega
  rw [e, Fintype.sum_prod_type]

/-- All eight blocks together are the whole sum over the hidden units. -/
theorem partialSum_eight (r : Fin 8192) (c : Fin 2048) :
    partialSum x w1 b1 w2 r c 8 = ∑ K : Fin 8192, term x w1 b1 w2 r c K :=
  (sum_units (term x w1 b1 w2 r c)).symm

end Cert.Mlp

end
-- ==== Proof.Blocks.lean ====
/-
  What the kernel's five input windows hold at a grid point, read back to the argument arrays.

  The grid is 16 row blocks by 8 hidden blocks, walked row block by row block: point `t` is row block `t / 8` and hidden
  block `t % 8`. At the ideal instance the conversions to a narrower format before the call are the identity and the
  two reshapes only add a unit axis, so at point `t` the windows hold: rows `512·(t/8) + p` of `x`; columns
  `1024·(t%8) + k` of `w1`; entries `1024·(t%8) + k` of `b1`; rows `1024·(t%8) + k` of `w2`; and all of `b2`.
-/
import proofs.«137520_j1331439862247_1_alg».proof.Proof.Gen.KernelIdeal.Frame
import proofs.«137520_j1331439862247_1_alg».proof.Proof.Spec
import Idealize.ShloMosaic.Lib.Pipeline.Value
import Idealize.ShloMosaic.Lib.StableHlo.Run
import Idealize.ShloMosaic.Lib.ValueIdx
import Idealize.ShloMosaic.Lib.ValueLayout

noncomputable section

namespace Cert.KernelIdeal.Blocks

open Cert.KernelIdeal Cert.KernelIdeal.Gen Idealize.ShloMosaic Idealize.ShloMosaic.TcCoe Idealize.SL.Sem
open Idealize.ShloMosaic.ValueIdx Cert.Mlp

variable (m : (ℓ : Loc nD τ sig) → Buf (Elt Ideal) ℓ)

/-! ## The five arrays the windows read, as the region finds them -/

theorem array_x (c : Dev nD) : (V m c main_v0 : S8192x2048.Idx → EReal) = m ((c : Thread nD τ).loc main_arg0) := by
  dsimp only [V, hostOps0]; after_results; rfl

theorem array_w1 (c : Dev nD) : (V m c main_v1 : S2048x8192.Idx → EReal) = m ((c : Thread nD τ).loc main_arg1) := by
  dsimp only [V, hostOps0]; after_results; rfl

theorem array_w2 (c : Dev nD) : (V m c main_v2 : S8192x2048.Idx → EReal) = m ((c : Thread nD τ).loc main_arg3) := by
  dsimp only [V, hostOps0]; after_results; rfl

theorem array_b1 (c : Dev nD) : (V m c main_v3 : S1x8192.Idx → EReal)
    = shapeCast S1x8192 (m ((c : Thread nD τ).loc main_arg2)) shapeCasts_S8192_S1x8192 := by
  dsimp only [V, hostOps0]; after_results; rfl

theorem array_b2 (c : Dev nD) : (V m c main_v4 : S1x2048.Idx → EReal)
    = shapeCast S1x2048 (m ((c : Thread nD τ).loc main_arg4)) shapeCasts_S2048_S1x2048 := by
  dsimp only [V, hostOps0]; after_results; rfl

/-! ## The index maps over the grid, decided once -/

theorem index_x : ∀ t : Fin cfg0.N, win0_0.index t (0 : Fin 2) = t.val / 8 ∧ win0_0.index t (1 : Fin 2) = 0 :=
  (by decide +kernel : ∀ t : Fin grid0.N, win0_0.index t (0 : Fin 2) = t.val / 8 ∧ win0_0.index t (1 : Fin 2) = 0)

theorem index_w1 : ∀ t : Fin cfg0.N, win0_1.index t (0 : Fin 2) = 0 ∧ win0_1.index t (1 : Fin 2) = t.val % 8 :=
  (by decide +kernel : ∀ t : Fin grid0.N, win0_1.index t (0 : Fin 2) = 0 ∧ win0_1.index t (1 : Fin 2) = t.val % 8)

theorem index_b1 : ∀ t : Fin cfg0.N, win0_2.index t (0 : Fin 2) = 0 ∧ win0_2.index t (1 : Fin 2) = t.val % 8 :=
  (by decide +kernel : ∀ t : Fin grid0.N, win0_2.index t (0 : Fin 2) = 0 ∧ win0_2.index t (1 : Fin 2) = t.val % 8)

theorem index_w2 : ∀ t : Fin cfg0.N, win0_3.index t (0 : Fin 2) = t.val % 8 ∧ win0_3.index t (1 : Fin 2) = 0 :=
  (by decide +kernel : ∀ t : Fin grid0.N, win0_3.index t (0 : Fin 2) = t.val % 8 ∧ win0_3.index t (1 : Fin 2) = 0)

theorem index_b2 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

/-! ## The blocks at a point, entry by entry -/

/-- Window 0 at point `t`: entry `(p, d)` is `x[512·(t/8) + p, d]`. -/
theorem x_block (c : Dev nD) (t : Fin cfg0.N) (p : Fin 512) (d : Fin 2048) :
    (iblk m c 0 t : Vec Ideal S512x2048 .bf16) (ix2 p d)
      = m ((c : Thread nD τ).loc main_arg0) (ix2 (row (t.val / 8) p) d) := by
  have hN : t.val < 128 := lt_of_lt_of_eq t.isLt (show cfg0.N = 128 from N_0)
  unfold iblk
  rw [View.read_apply]
  refine (congrFun (array_x m c) _).trans ?_
  congr 1
  funext a
  apply Fin.ext
  match a with
  | ⟨0, _⟩ =>
    show win0_0.index t 0 * 512 + 1 * p.val = (512 * (t.val / 8) + p.val) % 8192
    rw [(index_x t).1]; have := p.isLt; omega
  | ⟨1, _⟩ =>
    show win0_0.index t 1 * 2048 + 1 * d.val = d.val
    rw [(index_x t).2]; omega

/-- Window 1 at point `t`: entry `(d, k)` is `w1[d, 1024·(t%8) + k]`. -/
theorem w1_block (c : Dev nD) (t : Fin cfg0.N) (d : Fin 2048) (k : Fin 1024) :
    (iblk m c 1 t : Vec Ideal S2048x1024 .bf16) (ix2 d k)
      = m ((c : Thread nD τ).loc main_arg1) (ix2 d (unit (t.val % 8) k)) := by
  unfold iblk
  rw [View.read_apply]
  refine (congrFun (array_w1 m c) _).trans ?_
  congr 1
  funext a
  apply Fin.ext
  match a with
  | ⟨0, _⟩ =>
    show win0_1.index t 0 * 2048 + 1 * d.val = d.val
    rw [(index_w1 t).1]; omega
  | ⟨1, _⟩ =>
    show win0_1.index t 1 * 1024 + 1 * k.val = (1024 * (t.val % 8) + k.val) % 8192
    rw [(index_w1 t).2]; have := k.isLt; omega

/-- Window 3 at point `t`: entry `(k, q)` is `w2[1024·(t%8) + k, q]`. -/
theorem w2_block (c : Dev nD) (t : Fin cfg0.N) (k : Fin 1024) (q : Fin 2048) :
    (iblk m c 3 t : Vec Ideal S1024x2048 .bf16) (ix2 k q)
      = m ((c : Thread nD τ).loc main_arg3) (ix2 (unit (t.val % 8) k) q) := by
  unfold iblk
  rw [View.read_apply]
  refine (congrFun (array_w2 m c) _).trans ?_
  congr 1
  funext a
  apply Fin.ext
  match a with
  | ⟨0, _⟩ =>
    show win0_3.index t 0 * 1024 + 1 * k.val = (1024 * (t.val % 8) + k.val) % 8192
    rw [(index_w2 t).1]; have := k.isLt; omega
  | ⟨1, _⟩ =>
    show win0_3.index t 1 * 2048 + 1 * q.val = q.val
    rw [(index_w2 t).2]; omega

/-- Window 2 at point `t`: its one row at `k` is `b1[1024·(t%8) + k]`. -/
theorem b1_block (c : Dev nD) (t : Fin cfg0.N) (k : Fin 1024) :
    (iblk m c 2 t : Vec Ideal S1x1024 .f32) (ix2 (0 : Fin 1) k)
      = m ((c : Thread nD τ).loc main_arg2) (ix1 (unit (t.val % 8) k)) := by
  unfold iblk
  rw [View.read_apply]
  refine (congrFun (array_b1 m c) _).trans ?_
  have e : ((cfg0.win 2).blk t).view.emb (ix2 (0 : Fin 1) k) = (ix2 (0 : Fin 1) (unit (t.val % 8) k) : S1x8192.Idx) := by
    funext a
    apply Fin.ext
    match a with
    | ⟨0, _⟩ =>
      show win0_2.index t 0 * 1 + 1 * 0 = 0
      rw [(index_b1 t).1]
    | ⟨1, _⟩ =>
      show win0_2.index t 1 * 1024 + 1 * k.val = (1024 * (t.val % 8) + k.val) % 8192
      rw [(index_b1 t).2]; have := k.isLt; omega
  refine (congrArg (shapeCast S1x8192 (m ((c : Thread nD τ).loc main_arg2)) shapeCasts_S8192_S1x8192) e).trans ?_
  exact shapeCast_a_1a_apply (m ((c : Thread nD τ).loc main_arg2)) shapeCasts_S8192_S1x8192 (0 : Fin 1) (unit (t.val % 8) k)

/-- Window 4 at every point: its one row at `q` is `b2[q]`. -/
theorem b2_block (c : Dev nD) (t : Fin cfg0.N) (q : Fin 2048) :
    (iblk m c 4 t : Vec Ideal S1x2048 .f32) (ix2 (0 : Fin 1) q)
      = m ((c : Thread nD τ).loc main_arg4) (ix1 q) := by
  unfold iblk
  rw [View.read_apply]
  refine (congrFun (array_b2 m c) _).trans ?_
  have e : ((cfg0.win 4).blk t).view.emb (ix2 (0 : Fin 1) q) = (ix2 (0 : Fin 1) q : S1x2048.Idx) := by
    funext a
    apply Fin.ext
    match a with
    | ⟨0, _⟩ =>
      show win0_4.index t 0 * 1 + 1 * 0 = 0
      rw [(index_b2 t).1]
    | ⟨1, _⟩ =>
      show win0_4.index t 1 * 2048 + 1 * q.val = q.val
      rw [(index_b2 t).2]; omega
  refine (congrArg (shapeCast S1x2048 (m ((c : Thread nD τ).loc main_arg4)) shapeCasts_S2048_S1x2048) e).trans ?_
  exact shapeCast_a_1a_apply (m ((c : Thread nD τ).loc main_arg4)) shapeCasts_S2048_S1x2048 (0 : Fin 1) q

end Cert.KernelIdeal.Blocks

end
-- ==== Proof.Accum.lean ====
/-
  The carried accumulator, point by point, and the output block at the points that store it.

  Point `n` of the grid works on row block `n / 8` and hidden block `n % 8`. After it the accumulator's entry `(p, q)`
  is the sum, over the hidden blocks `0 … n % 8`, of each block's contribution to entry `(512·(n/8) + p, q)` of the
  perceptron: at a row block's first point the accumulator is reset, so it holds `0 +` the first block's contribution; at
  every other point it holds what the point before left plus this block's. By induction on the point. At a row block's
  last point all eight blocks are in, which is the whole sum over the 8192 hidden units, and the stored output block adds
  the bias: the perceptron's entry.
-/
import proofs.«137520_j1331439862247_1_alg».proof.Proof.Pieces
import proofs.«137520_j1331439862247_1_alg».proof.Proof.Payload
import proofs.«137520_j1331439862247_1_alg».proof.Proof.Blocks
import proofs.«137520_j1331439862247_1_alg».proof.Proof.Spec

noncomputable section

namespace Cert.KernelIdeal.Accum

open Cert.KernelIdeal Cert.KernelIdeal.Gen Idealize.ShloMosaic Idealize.ShloMosaic.TcCoe Idealize.SL.Sem
open Idealize.ShloMosaic.ValueIdx Cert.Mlp
open Cert.KernelIdeal.Blocks Cert.KernelIdeal.Pieces Cert.KernelIdeal.Payload

variable (m : (ℓ : Loc nD τ sig) → Buf (Elt Ideal) ℓ)

/-- The five argument arrays on core `c`. -/
abbrev argX (c : Dev nD) : Sx.Idx → EReal := m ((c : Thread nD τ).loc main_arg0)
abbrev argW1 (c : Dev nD) : Sw1.Idx → EReal := m ((c : Thread nD τ).loc main_arg1)
abbrev argB1 (c : Dev nD) : Sb1.Idx → EReal := m ((c : Thread nD τ).loc main_arg2)
abbrev argW2 (c : Dev nD) : Sx.Idx → EReal := m ((c : Thread nD τ).loc main_arg3)
abbrev argB2 (c : Dev nD) : Sb2.Idx → EReal := m ((c : Thread nD τ).loc main_arg4)

/-- The perceptron of core `c`'s arguments. -/
abbrev result (c : Dev nD) : Sx.Idx → EReal := mlp (argX m c) (argW1 m c) (argB1 m c) (argW2 m c) (argB2 m c)

/-- The first `k` hidden blocks' contribution to entry `(r, q)`, of core `c`'s arguments. -/
abbrev partialOf (c : Dev nD) (r : Fin 8192) (q : Fin 2048) (k : ℕ) : EReal :=
  partialSum (argX m c) (argW1 m c) (argB1 m c) (argW2 m c) r q k

/-- ONE ACCUMULATION STEP at point `t`, over any accumulator: entry `(p, q)` gains hidden block `t % 8`'s contribution
    to entry `(512·(t/8) + p, q)` — the body's arithmetic with each block read back to its argument array. -/
theorem step (c : Dev nD) (t : Fin cfg0.N) (acc : Vec Ideal S512x2048 .f32) (p : Fin 512) (q : Fin 2048) :
    k0_pay2 (F := Ideal) (iblk m c 0 t) (iblk m c 1 t) (iblk m c 2 t) acc (iblk m c 3 t) (ix2 p q)
      = acc (ix2 p q) + blockTerm (argX m c) (argW1 m c) (argB1 m c) (argW2 m c) (row (t.val / 8) p) q (t.val % 8) := by
  refine (accumulate_apply (iblk m c 0 t) (iblk m c 1 t) (iblk m c 2 t) acc (iblk m c 3 t) p q).trans ?_
  refine congrArg (acc (ix2 p q) + ·) ?_
  unfold Cert.Mlp.blockTerm
  refine Finset.sum_congr rfl fun k _ => ?_
  unfold Cert.Mlp.term Cert.Mlp.hidden
  rw [b1_block m c t k, w2_block m c t k q]
  refine congrArg (fun s => max (s + _) 0 * _) ?_
  refine Finset.sum_congr rfl fun d _ => ?_
  rw [x_block m c t p d, w1_block m c t d k]

/-- A point that is not a row block's first: if the point before left the first `n % 8` blocks' contributions, the step
    over it leaves the first `n % 8 + 1`. -/
theorem step_over_previous (c : Dev nD) (n : ℕ) (h : n < cfg0.N) (h0 : ¬n % 8 = 0)
    (hprev : ∀ (p : Fin 512) (q : Fin 2048), (outsAt0 m c (n - 1) (Nat.lt_of_le_of_lt (Nat.sub_le _ _) h)).2 (ix2 p q) = partialOf m c (row ((n - 1) / 8) p) q ((n - 1) % 8 + 1))
    (p : Fin 512) (q : Fin 2048) :
    k0_pay2 (F := Ideal) (iblk m c 0 ⟨n, h⟩) (iblk m c 1 ⟨n, h⟩) (iblk m c 2 ⟨n, h⟩) (outsAt0 m c (n - 1) (Nat.lt_of_le_of_lt (Nat.sub_le _ _) h)).2 (iblk m c 3 ⟨n, h⟩) (ix2 p q)
      = partialOf m c (row (n / 8) p) q (n % 8 + 1) := by
  have e1 : (n - 1) / 8 = n / 8 := by omega
  have e2 : (n - 1) % 8 + 1 = n % 8 := by omega
  refine (step m c ⟨n, h⟩ (outsAt0 m c (n - 1) (Nat.lt_of_le_of_lt (Nat.sub_le _ _) h)).2 p q).trans ?_
  rw [hprev p q, e1, e2]
  exact (partialSum_succ _ _ _ _ _ _ _).symm

/-- THE ACCUMULATOR AFTER POINT `n`: the first `n % 8 + 1` hidden blocks' contributions to row block `n / 8`. -/
theorem scratch_eq (c : Dev nD) : ∀ (n : ℕ) (h : n < cfg0.N) (p : Fin 512) (q : Fin 2048),
    (outsAt0 m c n h).2 (ix2 p q) = partialOf m c (row (n / 8) p) q (n % 8 + 1) := by
  intro n
  induction n using Nat.strong_induction_on with
  | _ n ih =>
    intro h p q
    have hN : n < 128 := lt_of_lt_of_eq h (show cfg0.N = 128 from N_0)
    by_cases h0 : n % 8 = 0
    · have h1 : ¬n % 8 = 7 := by omega
      rw [outsAt0_A m c ⟨n, h⟩ h0 h1]
      dsimp only
      refine (congrFun (scratch_A (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) scM0_0 (Memref.isWhole_whole _) ((hcond0_0 ⟨n, h⟩).mpr h0) (fun hh => h1 ((hcond0_1 ⟨n, h⟩).mp hh)) (iblk m c 0 ⟨n, h⟩) (iblk m c 1 ⟨n, h⟩) (iblk m c 2 ⟨n, h⟩) (iblk m c 3 ⟨n, h⟩) (iblk m c 4 ⟨n, h⟩)) (ix2 p q)).trans ?_
      refine (step m c ⟨n, h⟩ (k0_pay1 (F := Ideal)) p q).trans ?_
      rw [reset_apply]
      show 0 + blockTerm _ _ _ _ _ _ (n % 8) = partialSum _ _ _ _ _ _ (n % 8 + 1)
      rw [h0, partialSum_succ, partialSum_zero]
    · have hlt : n - 1 < n := by omega
      by_cases h1 : n % 8 = 7
      · rw [outsAt0_C m c ⟨n, h⟩ h0 h1]
        dsimp only
        refine (congrFun (scratch_C (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) scM0_0 (Memref.isWhole_whole _) (fun hh => h0 ((hcond0_0 ⟨n, h⟩).mp hh)) ((hcond0_1 ⟨n, h⟩).mpr h1) (iblk m c 0 ⟨n, h⟩) (iblk m c 1 ⟨n, h⟩) (iblk m c 2 ⟨n, h⟩) (iblk m c 3 ⟨n, h⟩) (iblk m c 4 ⟨n, h⟩) (outsAt0 m c (n - 1) (Nat.lt_of_le_of_lt (Nat.sub_le _ _) h)).2) (ix2 p q)).trans ?_
        exact step_over_previous m c n h h0 (fun p' q' => ih (n - 1) hlt _ p' q') p q
      · rw [outsAt0_B m c ⟨n, h⟩ h0 h1]
        dsimp only
        refine (congrFun (scratch_B (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) scM0_0 (Memref.isWhole_whole _) (fun hh => h0 ((hcond0_0 ⟨n, h⟩).mp hh)) (fun hh => h1 ((hcond0_1 ⟨n, h⟩).mp hh)) (iblk m c 0 ⟨n, h⟩) (iblk m c 1 ⟨n, h⟩) (iblk m c 2 ⟨n, h⟩) (iblk m c 3 ⟨n, h⟩) (iblk m c 4 ⟨n, h⟩) (outsAt0 m c (n - 1) (Nat.lt_of_le_of_lt (Nat.sub_le _ _) h)).2) (ix2 p q)).trans ?_
        exact step_over_previous m c n h h0 (fun p' q' => ih (n - 1) hlt _ p' q') p q

/-- THE OUTPUT BLOCK at a row block's last point: entry `(p, q)` is the perceptron's entry `(512·(n/8) + p, q)`. -/
theorem out_eq (c : Dev nD) (n : ℕ) (h : n < cfg0.N) (h7 : n % 8 = 7) (p : Fin 512) (q : Fin 2048) :
    (outsAt0 m c n h).1 (ix2 p q) = result m c (ix2 (row (n / 8) p) q) := by
  have h0 : ¬n % 8 = 0 := by omega
  rw [outsAt0_C m c ⟨n, h⟩ h0 h7]
  dsimp only
  refine (congrFun (out_C (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) scM0_0 (Memref.isWhole_whole _) (fun hh => h0 ((hcond0_0 ⟨n, h⟩).mp hh)) ((hcond0_1 ⟨n, h⟩).mpr h7) (iblk m c 0 ⟨n, h⟩) (iblk m c 1 ⟨n, h⟩) (iblk m c 2 ⟨n, h⟩) (iblk m c 3 ⟨n, h⟩) (iblk m c 4 ⟨n, h⟩) (outsAt0 m c (n - 1) (Nat.lt_of_le_of_lt (Nat.sub_le _ _) h)).2) (ix2 p q)).trans ?_
  refine (bias_apply (k0_pay2 (F := Ideal) (iblk m c 0 ⟨n, h⟩) (iblk m c 1 ⟨n, h⟩) (iblk m c 2 ⟨n, h⟩) (outsAt0 m c (n - 1) (Nat.lt_of_le_of_lt (Nat.sub_le _ _) h)).2 (iblk m c 3 ⟨n, h⟩)) (iblk m c 4 ⟨n, h⟩) p q).trans ?_
  rw [b2_block m c ⟨n, h⟩ q, step_over_previous m c n h h0 (fun p' q' => scratch_eq m c (n - 1) _ p' q') p q, h7]
  show partialSum _ _ _ _ _ _ 8 + _ = _
  rw [partialSum_eight]
  rfl

end Cert.KernelIdeal.Accum

end
-- ==== Proof.Final.lean ====
/-
  The result array after the run is the perceptron of the arguments.

  The output window's block at point `t` is rows `512·(t/8) … 512·(t/8) + 511`, all columns, and it is written back only
  at a row block's last point (`t % 8 = 7`). What such a point writes back is the output block the accumulator
  analysis names: block `t / 8` of the perceptron. Every row `r` lies in the block written back at point
  `8·(r / 512) + 7`, so the sixteen write-backs cover the array and it ends holding the perceptron.
-/
import proofs.«137520_j1331439862247_1_alg».proof.Proof.Accum
import proofs.«137520_j1331439862247_1_alg».proof.Proof.Gen.KernelIdeal.Value

noncomputable section

namespace Cert.KernelIdeal.Final

open Cert.KernelIdeal Cert.KernelIdeal.Gen Idealize.ShloMosaic Idealize.ShloMosaic.TcCoe Idealize.SL.Sem
open Idealize.ShloMosaic.Pipeline (Dat)
open Idealize.ShloMosaic.ValueIdx Cert.Mlp Cert.KernelIdeal.Accum

variable (m : (ℓ : Loc nD τ sig) → Buf (Elt Ideal) ℓ) (ρ : Dev nD → PrngReg)

/-- The output window's block index at point `t`: row block `t / 8`, the one column block. -/
theorem index_out : ∀ t : Fin cfg0.N, win0_5.index t (0 : Fin 2) = t.val / 8 ∧ win0_5.index t (1 : Fin 2) = 0 :=
  (by decide +kernel : ∀ t : Fin grid0.N, win0_5.index t (0 : Fin 2) = t.val / 8 ∧ win0_5.index t (1 : Fin 2) = 0)

/-- The output block at a row block's last point, at any entry `y` of the block. -/
theorem out_block (c : Dev nD) (t : Fin cfg0.N) (h7 : t.val % 8 = 7) (y : S512x2048.Idx) :
    (outsAt0 m c t.val t.isLt).1 y = result m c (ix2 (row (t.val / 8) (y 0)) (y 1)) := by
  have e : y = ix2 (y 0) (y 1) := eq_ix2 y
  rw [e]
  exact out_eq m c t.val t.isLt h7 (y 0) (y 1)

/-- WHAT A WRITE-BACK POINT WRITES BACK is its block of the perceptron. -/
theorem flushed_eq (c : Dev nD) (t : Fin cfg0.N) (hf : (cfg0.win 5).flush t = true) :
    (dats m 0 c).flushed 5 t = ((cfg0.win 5).blk t).view.read (Elt Ideal) (result m c) := by
  have h7 : t.val % 8 = 7 := (flush0_5 t).mp hf
  have hN : t.val < 128 := lt_of_lt_of_eq t.isLt (show cfg0.N = 128 from N_0)
  rw [Cert.KernelIdeal.Value.flushed5]
  funext j
  show (outsAt0 m c t.val t.isLt).1 j = result m c (((cfg0.win 5).blk t).view.emb j)
  rw [out_block m c t h7 j]
  congr 1
  funext a
  apply Fin.ext
  match a with
  | ⟨0, _⟩ =>
    show (512 * (t.val / 8) + (j 0).val) % 8192 = win0_5.index t (0 : Fin 2) * 512 + 1 * (j 0).val
    rw [(index_out t).1]; have hj : (j 0).val < 512 := (j 0).isLt; omega
  | ⟨1, _⟩ =>
    show (j 1).val = win0_5.index t (1 : Fin 2) * 2048 + 1 * (j 1).val
    rw [(index_out t).2]; omega

/-- An index of the array is in point `t`'s block iff each coordinate is in the block's range on its axis. -/
theorem mem_block (t : Fin cfg0.N) (i : S8192x2048.Idx) :
    i ∈ ((cfg0.win 5).blk t).view.set ↔ ∀ a : Fin 2, win0_5.index t a * S512x2048.size a ≤ (i a).val ∧ (i a).val < win0_5.index t a * S512x2048.size a + S512x2048.size a := by
  show i ∈ ((View.whole main_v5).slice (win0_5.rect t)).set ↔ _
  rw [View.set_slice_whole, Rect.mem_set_unit]
  exact Iff.rfl

/-- THE RESULT ARRAY after the run is the perceptron. -/
theorem final (c : Dev nD) : (dats m 0 c).arrAt 5 cfg0.N = result m c :=
  (dats m 0 c).arrAt_eq_of_cover 5 (result m c) (flushed_eq m c) fun i => by
    have hi0 : (i 0).val < 8192 := (i 0).isLt
    have hi1 : (i 1).val < 2048 := (i 1).isLt
    have hn : 8 * ((i 0).val / 512) + 7 < cfg0.N := by rw [show cfg0.N = 128 from N_0]; omega
    refine ⟨⟨8 * ((i 0).val / 512) + 7, hn⟩, (flush0_5 _).mpr (by show (8 * ((i 0).val / 512) + 7) % 8 = 7; omega), ?_⟩
    rw [mem_block]
    obtain ⟨e0, e1⟩ := index_out ⟨8 * ((i 0).val / 512) + 7, hn⟩
    have e0' : win0_5.index ⟨8 * ((i 0).val / 512) + 7, hn⟩ (0 : Fin 2) = (8 * ((i 0).val / 512) + 7) / 8 := e0
    intro a
    match a with
    | ⟨0, _⟩ =>
      show win0_5.index ⟨8 * ((i 0).val / 512) + 7, hn⟩ (0 : Fin 2) * 512 ≤ (i 0).val ∧ (i 0).val < win0_5.index ⟨8 * ((i 0).val / 512) + 7, hn⟩ (0 : Fin 2) * 512 + 512
      rw [e0']; omega
    | ⟨1, _⟩ =>
      show win0_5.index ⟨8 * ((i 0).val / 512) + 7, hn⟩ (1 : Fin 2) * 2048 ≤ (i 1).val ∧ (i 1).val < win0_5.index ⟨8 * ((i 0).val / 512) + 7, hn⟩ (1 : Fin 2) * 2048 + 2048
      rw [e1]; omega

/-- The run, read: the result array at the perceptron of the arguments, the arguments unchanged. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩)
    (Cert.KernelIdeal.Value.run_blocks m ρ)

end Cert.KernelIdeal.Final

end
-- ==== Proof.RefValue.lean ====
/-
  The reference program computes the two-layer perceptron. Its five stages are two contractions, two additions of a
  broadcast bias and one maximum with zero:
      v0[r, K] = Σ_d x[r, d] · w1[d, K],   v3 = v0 + b1[K],   v5 = max(v3, 0),
      v6[r, c] = Σ_K v5[r, K] · w2[K, c],  v9 = v6 + b2[c].
  Each stage read at one entry is a function of its operands at explicitly computed entries; the lemmas below say what
  those entries are in coordinates (row and column of the left and right operand of each contraction, and the single
  coordinate at which each bias is read after its two broadcasts). With them the rectified stage at `(r, K)` is the
  specification's hidden unit `K` of row `r`, and the last stage at `(r, c)` is the sum over the hidden units of
  `hidden[r, K] · w2[K, c]` plus `b2[c]`: the perceptron's entry. On the extended reals the stages' addition, product
  and maximum are the ordinary ones and the zero word denotes 0, so nothing beyond unfolding is needed: no entry has to
  be finite.
-/
import proofs.«137520_j1331439862247_1_alg».proof.Proof.Gen.ReferenceIdeal.Read
import proofs.«137520_j1331439862247_1_alg».proof.Proof.Spec

noncomputable section

open scoped BigOperators

namespace Cert.ReferenceIdeal.RefValue

open Cert.ReferenceIdeal Cert.ReferenceIdeal.Read Idealize.ShloMosaic Idealize.ShloMosaic.ValueIdx

/-- The second product's left operand is read at row `i 0`, column `K`. -/
theorem lidx_v6_eq (i : S8192x2048.Idx) (K : Fin 8192) :
    lidx_main_v6 i K = (ix2 (i 0) K : (⟨2, ![8192, 8192]⟩ : Shape).Idx) :=
  funext fun a => Fin.ext (by match a with | ⟨0, _⟩ => rfl | ⟨1, _⟩ => rfl)

/-- The second product's right operand is read at row `K`, column `i 1`. -/
theorem ridx_v6_eq (i : S8192x2048.Idx) (K : Fin 8192) :
    ridx_main_v6 i K = (ix2 K (i 1) : (⟨2, ![8192, 2048]⟩ : Shape).Idx) :=
  funext fun a => Fin.ext (by match a with | ⟨0, _⟩ => rfl | ⟨1, _⟩ => rfl)

/-- The first product's left operand, for the entry `(r, K)`, is read at row `r`, column `d`. -/
theorem lidx_v0_eq (r K : Fin 8192) (d : Fin 2048) :
    lidx_main_v0 (ix2 r K : (⟨2, ![8192, 8192]⟩ : Shape).Idx) d = (ix2 r d : (⟨2, ![8192, 2048]⟩ : Shape).Idx) :=
  funext fun a => Fin.ext (by match a with | ⟨0, _⟩ => rfl | ⟨1, _⟩ => rfl)

/-- The first product's right operand, for the entry `(r, K)`, is read at row `d`, column `K`. -/
theorem ridx_v0_eq (r K : Fin 8192) (d : Fin 2048) :
    ridx_main_v0 (ix2 r K : (⟨2, ![8192, 8192]⟩ : Shape).Idx) d = (ix2 d K : (⟨2, ![2048, 8192]⟩ : Shape).Idx) :=
  funext fun a => Fin.ext (by match a with | ⟨0, _⟩ => rfl | ⟨1, _⟩ => rfl)

/-- The first bias, broadcast twice, is read at `K` for the entry `(r, K)`. -/
theorem idx_b1_eq (r K : Fin 8192) :
    idx_main_v1 (idx_main_v2 (ix2 r K : (⟨2, ![8192, 8192]⟩ : Shape).Idx)) = (ix1 K : (⟨1, ![8192]⟩ : Shape).Idx) :=
  funext fun a => Fin.ext (by match a with | ⟨0, _⟩ => rfl)

/-- The second bias, broadcast twice, is read at the entry's column. -/
theorem idx_b2_eq (i : S8192x2048.Idx) :
    idx_main_v7 (idx_main_v8 i) = (ix1 (i 1) : (⟨1, ![2048]⟩ : Shape).Idx) :=
  funext fun a => Fin.ext (by match a with | ⟨0, _⟩ => rfl)

/-- The rectified stage at `(r, K)` is hidden unit `K` of row `r`. -/
theorem hidden_eq (x0 : (⟨S8192x2048, .f32⟩ : BufTy).Contents (Elt Ideal)) (x1 : (⟨S2048x8192, .f32⟩ : BufTy).Contents (Elt Ideal)) (x2 : (⟨S8192, .f32⟩ : BufTy).Contents (Elt Ideal)) (r K : Fin 8192) :
    val_main_v5 (F := Ideal) x0 x1 x2 (ix2 r K : (⟨2, ![8192, 8192]⟩ : Shape).Idx) = Cert.Mlp.hidden x0 x1 x2 r K := by
  rw [val_main_v5_apply, val_main_v3_apply, val_main_v0_apply, val_main_v2_apply, val_main_v1_apply,
    val_main_v4_apply, val_main_cst_apply, idx_b1_eq r K, Ideal.ofBits_def, Ideal.ofBits_zero_f32]
  show max ((∑ d : Fin 2048, x0 (lidx_main_v0 (ix2 r K) d) * x1 (ridx_main_v0 (ix2 r K) d)) + x2 (ix1 K)) 0
      = max ((∑ d : Fin 2048, x0 (ix2 r d) * x1 (ix2 d K)) + x2 (ix1 K)) 0
  congr 2
  refine Finset.sum_congr rfl fun d _ => ?_
  rw [lidx_v0_eq, ridx_v0_eq]

/-- The reference's last stage, at the ideal instance, is the perceptron of its five arguments. -/
theorem reference_eq (x0 : (⟨S8192x2048, .f32⟩ : BufTy).Contents (Elt Ideal)) (x1 : (⟨S2048x8192, .f32⟩ : BufTy).Contents (Elt Ideal)) (x2 : (⟨S8192, .f32⟩ : BufTy).Contents (Elt Ideal)) (x3 : (⟨S8192x2048, .f32⟩ : BufTy).Contents (Elt Ideal)) (x4 : (⟨S2048, .f32⟩ : BufTy).Contents (Elt Ideal)) :
    val_main_v9 (F := Ideal) x0 x1 x2 x3 x4 = Cert.Mlp.mlp x0 x1 x2 x3 x4 := by
  funext i
  rw [val_main_v9_apply, val_main_v6_apply, val_main_v8_apply, val_main_v7_apply, idx_b2_eq]
  show (∑ k : Fin 8192, val_main_v5 (F := Ideal) x0 x1 x2 (lidx_main_v6 i k) * x3 (ridx_main_v6 i k)) + x4 (ix1 (i 1))
      = (∑ K : Fin 8192, Cert.Mlp.term x0 x1 x2 x3 (i 0) (i 1) K) + x4 (ix1 (i 1))
  congr 1
  refine Finset.sum_congr rfl fun K _ => ?_
  rw [lidx_v6_eq, ridx_v6_eq]
  exact congrArg (fun h : EReal => h * x3 (ix2 K (i 1))) (hidden_eq x0 x1 x2 (i 0) K)

end Cert.ReferenceIdeal.RefValue

end
-- ==== Proof.lean ====
/-
  The kernel computes the two-layer perceptron `relu (x · w1 + b1) · w2 + b2` of its five arguments, and so does the
  reference; over the extended reals the two results are equal entry by entry.

  The kernel walks a grid of 16 row blocks by 8 hidden blocks. For each row block it accumulates, hidden block by hidden
  block, `relu (x_rows · w1_block + b1_block) · w2_block` into a scratch accumulator that is reset at the first hidden
  block, and at the last hidden block stores the accumulator plus `b2` into the result's row block. At the ideal
  instance a change of float format is the identity, so the operands are the arguments themselves, and the
  accumulator after hidden block `h` is the sum of the first `h + 1` blocks' contributions (by induction on the grid
  point); the eight blocks' contributions together are the whole sum over the 8192 hidden units, because a finite sum on
  the extended reals may be regrouped freely (addition there is commutative and associative). The reference's two
  contractions, two bias additions and one maximum, read entry by entry, are the same expression. No entry has to be
  finite: the precondition is not used.

  The three runs: the kernel's and the idealized kernel's termination and unchanged arguments are the generated frame
  theorems; the reference's is its generated run with the result dropped. The idealization rewrote nothing.
-/
import proofs.«137520_j1331439862247_1_alg».proof.Defs
import proofs.«137520_j1331439862247_1_alg».proof.Proof.Gen.Kernel
import proofs.«137520_j1331439862247_1_alg».proof.Proof.Gen.Kernel.Skeleton
import proofs.«137520_j1331439862247_1_alg».proof.Proof.Gen.Kernel.Launch
import proofs.«137520_j1331439862247_1_alg».proof.Proof.Gen.Kernel.Points
import proofs.«137520_j1331439862247_1_alg».proof.Proof.Gen.Kernel.Frame
import proofs.«137520_j1331439862247_1_alg».proof.Proof.Gen.KernelIdeal
import proofs.«137520_j1331439862247_1_alg».proof.Proof.Gen.KernelIdeal.Skeleton
import proofs.«137520_j1331439862247_1_alg».proof.Proof.Gen.KernelIdeal.Launch
import proofs.«137520_j1331439862247_1_alg».proof.Proof.Gen.KernelIdeal.Points
import proofs.«137520_j1331439862247_1_alg».proof.Proof.Gen.KernelIdeal.Frame
import proofs.«137520_j1331439862247_1_alg».proof.Proof.Gen.ReferenceIdeal
import proofs.«137520_j1331439862247_1_alg».proof.Proof.Gen.Pre_finite_inputs
import proofs.«137520_j1331439862247_1_alg».proof.Proof.Gen.KernelIdeal.Value
import proofs.«137520_j1331439862247_1_alg».proof.Proof.Gen.ReferenceIdeal.Run
import proofs.«137520_j1331439862247_1_alg».proof.Proof.Gen.ReferenceIdeal.Read
import proofs.«137520_j1331439862247_1_alg».proof.Proof.Final
import proofs.«137520_j1331439862247_1_alg».proof.Proof.RefValue
import Idealize.ShloMosaic.Adequacy
import Idealize.ShloMosaic.Init

noncomputable section

namespace Cert.Proof

open Idealize.ShloMosaic Idealize.SL.Sem

/-- The kernel as printed terminates without a fault and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the five arguments, the idealized kernel's result array and the reference's both end at
    the perceptron of those arguments. -/
theorem algebraic : Cert.algebraic_KernelIdeal_ReferenceIdeal := by
  intro m ρ m' ρ' _ hagree
  refine ⟨fun c => Cert.KernelIdeal.Accum.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefValue.reference_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
